-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S10000x128 .f32) (main_arg1 : IVec S640000 32) (main_arg2 : IVec S640000 32) (main_arg3 : FVec F S128x128 .f32) (main_arg4 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S2000x128 : Shape := ⟨2, ![2000, 128]⟩

abbrev nBuf : Space → Nat
  | .hbm => 20
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S1x128, .f32⟩
  | .hbm, ⟨19, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S10000x128, .f32⟩
  | .hbm, ⟨16, _⟩ => ⟨S640000x1, .i32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelEntry.lean ====
/-
  What the kernel body stores at one entry of its 2000 × 128 block.

  The body loads a 2000 × 128 block x of the aggregated features, the whole 128 × 128 weight array w and the bias as a
  1 × 128 row r. It narrows x and w to a shorter float format (at the ideal values a change of format is the identity), forms
  their matrix product into an all-zero accumulator, adds the bias row stretched over the 2000 rows and takes the
  maximum with the all-zero word. At entry (p, q) that is

      max ( ∑ k : Fin 128, x (p, k) · w (k, q)  +  r (0, q) ,  0 ),

  the sum being the plain matrix product read at an entry, and the stretched bias row read at (p, q) being the row's
  entry in column q.
-/
import proofs.«121899_j75033078661648_1_alg».proof.Proof.Gen.KernelIdeal.Skeleton
import proofs.«121899_j75033078661648_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx

/-- The kernel's dimension numbers are those of the plain 2000 × 128 by 128 × 128 product. -/
theorem dims_plain : dot_S2000x128_S128x128_S2000x128_1_0_0_1_n_n = DotDims.plain 2000 128 128 := rfl

/-- A 1 × 128 row stretched over 2000 rows, read at (p, q), is the row's entry in column q: the row's first axis has
    extent one, so it is read at 0 there, and its second axis is the result's second axis. -/
theorem row_stretched {α : Type} (r : S1x128.Idx → α) (h : S1x128.Broadcasts S2000x128) (p : Fin 2000) (q : Fin 128) :
    broadcastTo S2000x128 r h (ix2 p q) = r (ix2 0 q) :=
  broadcastTo_apply r h (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The body's stored value at entry (p, q) of its block, from the three loaded values. -/
theorem pay_at (x : Vec Ideal S2000x128 .f32) (w : Vec Ideal S128x128 .f32) (r : Vec Ideal S1x128 .f32)
    (p : Fin 2000) (q : Fin 128) :
    k0_pay1 (F := Ideal) x w r (ix2 p q)
      = max ((∑ k : Fin 128, x (ix2 p k) * w (ix2 k q)) + r (ix2 0 q)) (Ideal.ofBits .f32 0x00000000#32) := by
  unfold k0_pay1
  rw [shapeCast_self, shapeCast_self, shapeCast_self, maximumf_apply, addf_apply, row_stretched]
  refine congrArg₂ max (congrArg₂ (· + ·) ?_ rfl) rfl
  exact LibDotPlain.matmul_zero_plain 2000 128 128 none (truncf .bf16 x bitsLt_bf16_f32) (truncf .bf16 w bitsLt_bf16_f32) p q

end Cert.KernelIdeal.BlockEntry
-- ==== Proof.Dense.lean ====
/-
  The dense layer with bias, clamped below at zero, as one function of its three arrays.

  Given a 10000 × 128 array h of node features, a 128 × 128 weight array W and a bias b of length 128, entry (i, j) of the
  layer is

      max ( ∑ q : Fin 128, h (i, q) · W (q, j)  +  b j ,  0 )

  over the extended reals: row i of h against column j of W, the bias of column j added, and the result clamped below at
  the value of the all-zero word. The zero is kept as that word's value: both programs compare against the same word, so it is never
  evaluated. Nothing here depends on how h was produced.
-/
import Idealize.ShloMosaic.PureOps.Ideal.Laws
import Idealize.ShloMosaic.Lib.ValueIdx

noncomputable section

open scoped BigOperators

namespace Cert.Dense

open Idealize.ShloMosaic Idealize.ShloMosaic.ValueIdx

/-- Entry (i, j) of the layer: the product of row i of `h` with column j of `W`, plus the bias of column j, clamped
    below at the zero word's value. -/
def entry (h : FVec Ideal ⟨2, ![10000, 128]⟩ .f32) (W : FVec Ideal ⟨2, ![128, 128]⟩ .f32) (b : FVec Ideal ⟨1, ![128]⟩ .f32)
    (i : Fin 10000) (j : Fin 128) : EReal :=
  max ((∑ q : Fin 128, h (ix2 i q) * W (ix2 q j)) + b (ix1 j)) (Ideal.ofBits .f32 0x00000000#32)

/-- The layer as a whole 10000 × 128 array: at each index, `entry` at the index's two coordinates. -/
def layer (h : FVec Ideal ⟨2, ![10000, 128]⟩ .f32) (W : FVec Ideal ⟨2, ![128, 128]⟩ .f32) (b : FVec Ideal ⟨1, ![128]⟩ .f32) :
    FVec Ideal ⟨2, ![10000, 128]⟩ .f32 :=
  fun e => entry h W b (e 0) (e 1)

/-- The layer read at the index with coordinates (i, j). -/
theorem layer_apply (h : FVec Ideal ⟨2, ![10000, 128]⟩ .f32) (W : FVec Ideal ⟨2, ![128, 128]⟩ .f32) (b : FVec Ideal ⟨1, ![128]⟩ .f32)
    (i : Fin 10000) (j : Fin 128) : layer h W b (ix2 i j) = entry h W b i j := rfl

end Cert.Dense
-- ==== Proof.KernelArray.lean ====
/-
  From the kernel's five row blocks to its whole output array.

  The kernel runs at five grid points. Point t stages rows 2000·t … 2000·t + 1999 of the aggregated 10000 × 128 array,
  the whole 128 × 128 weight array and the bias as a 1 × 128 row, and writes back rows 2000·t … 2000·t + 1999 of the
  10000 × 128 output. What it writes at entry (p, q) of its block is the dense layer's entry (2000·t + p, q): the block's
  row p is row 2000·t + p of the aggregated array, the staged weights and bias are the whole arrays, and the body's
  stored value at an entry is the product row by column, plus the bias, clamped below at zero. The five blocks are
  disjoint in rows and together hold every row (row r lies in block r / 2000), so after the run the output array is
  the dense layer of the three staged arrays, index by index.
-/
import proofs.«121899_j75033078661648_1_alg».proof.Proof.Gen.KernelIdeal.Value
import proofs.«121899_j75033078661648_1_alg».proof.Proof.KernelEntry
import proofs.«121899_j75033078661648_1_alg».proof.Proof.Dense

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The bias as the kernel holds it, a 1 × 128 row, read as a vector of length 128. -/
abbrev rowAsVector (r : FVec Ideal ⟨2, ![1, 128]⟩ .f32) : FVec Ideal ⟨1, ![128]⟩ .f32 := fun j => r (ix2 0 (j 0))

/-- The output array the kernel should leave: the dense layer of the three arrays its windows stage, as the region finds them. -/
def target (c : Dev nD) : FVec Ideal ⟨2, ![10000, 128]⟩ .f32 :=
  Cert.Dense.layer (V m c main_v9) (V m c main_arg3) (rowAsVector (V m c main_v10))

/-- The body's stored value at entry (p, q) of a block is the layer's entry (i, j), once the block's row p is row i of the
    aggregated array, the loaded weights are the weight array in column j = q, and the loaded bias row holds the bias. -/
theorem point_value (x : Vec Ideal S2000x128 .f32) (w : Vec Ideal S128x128 .f32) (r : Vec Ideal S1x128 .f32)
    (h : FVec Ideal ⟨2, ![10000, 128]⟩ .f32) (W : FVec Ideal ⟨2, ![128, 128]⟩ .f32) (b : FVec Ideal ⟨1, ![128]⟩ .f32)
    (i : Fin 10000) (j : Fin 128) (p : Fin 2000) (q : Fin 128)
    (hx : ∀ k : Fin 128, x (ix2 p k) = h (ix2 i k)) (hw : ∀ k : Fin 128, w (ix2 k q) = W (ix2 k j))
    (hr : r (ix2 0 q) = b (ix1 j)) :
    k0_pay1 (F := Ideal) x w r (ix2 p q) = Cert.Dense.entry h W b i j := by
  rw [BlockEntry.pay_at]
  unfold Cert.Dense.entry
  rw [hr]
  exact congrArg₂ max (congrArg₂ (· + ·) (Finset.sum_congr rfl fun k _ => by rw [hx k, hw k]) rfl) rfl

/-- The block indices over the five points: the aggregated array's block moves with the output's along the rows, every
    other block index is zero, and the output's row block index is at most 4. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 4 :=
  (by decide +kernel : ∀ t : Fin grid0.N, _)

/-- What point `t` writes back is block `t` of the target: at entry (p, q) of the block the body's stored value is the
    layer's entry at the array index the block's entry (p, q) sits at. -/
theorem flushed_eq (c : Dev nD) (t : Fin cfg0.N) :
    (dats m 0 c).flushed 3 t = ((cfg0.win 3).blk t).view.read (Elt Ideal) (target m c) := by
  rw [Cert.KernelIdeal.Value.flushed3]
  unfold out0_3
  rw [View.canon_unit_zero origin]
  simp only [View.ld_unit_zero (S := S2000x128) origin, View.ld_unit_zero (S := S128x128) origin, View.ld_unit_zero (S := S1x128) origin]
  obtain ⟨e0, e1, e2, e3, e4, e5, e6, e7⟩ := index_facts t
  funext y
  show k0_pay1 (F := Ideal) (iblk m c 0 t) (iblk m c 1 t) (iblk m c 2 t) y = target m c (((cfg0.win 3).blk t).view.emb y)
  refine (congrArg (k0_pay1 (F := Ideal) (iblk m c 0 t) (iblk m c 1 t) (iblk m c 2 t)) (eq_ix2 (n0 := 2000) (n1 := 128) y)).trans ?_
  show _ = Cert.Dense.entry (V m c main_v9) (V m c main_arg3) (rowAsVector (V m c main_v10))
    ((((cfg0.win 3).blk t).view.emb y) 0) ((((cfg0.win 3).blk t).view.emb y) 1)
  refine point_value (iblk m c 0 t) (iblk m c 1 t) (iblk m c 2 t) (V m c main_v9) (V m c main_arg3) (rowAsVector (V m c main_v10))
    ((((cfg0.win 3).blk t).view.emb y) 0) ((((cfg0.win 3).blk t).view.emb y) 1) (y 0) (y 1) ?_ ?_ ?_
  · intro k
    show V m c main_v9 (((cfg0.win 0).blk t).view.emb (ix2 (y 0) k)) = V m c main_v9 (ix2 ((((cfg0.win 3).blk t).view.emb y) 0) k)
    refine congrArg (V m c main_v9) (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 128 + 1 * k.val = k.val; omega
  · intro k
    show V m c main_arg3 (((cfg0.win 1).blk t).view.emb (ix2 k (y 1))) = V m c main_arg3 (ix2 k ((((cfg0.win 3).blk t).view.emb y) 1))
    refine congrArg (V m c main_arg3) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_3.index t (1 : Fin 2) * 128 + 1 * (y 1).val; omega
  · show V m c main_v10 (((cfg0.win 2).blk t).view.emb (ix2 0 (y 1))) = V m c main_v10 (ix2 0 ((((cfg0.win 3).blk t).view.emb y) 1))
    refine congrArg (V m c main_v10) (funext fun a => Fin.ext ?_)
    match a with
    | ⟨0, _⟩ => show win0_2.index t (0 : Fin 2) * 1 + 1 * 0 = 0; omega
    | ⟨1, _⟩ => show win0_2.index t (1 : Fin 2) * 128 + 1 * (y 1).val = win0_3.index t (1 : Fin 2) * 128 + 1 * (y 1).val; omega

/-- An index of the output array lies in point `t`'s block exactly when each coordinate lies in the block's range on its axis. -/
theorem mem_block (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v11).slice (win0_3.rect t)).set ↔ _
  rw [View.set_slice_whole, Rect.mem_set_unit]
  exact Iff.rfl

/-- Each of the five row blocks is some grid point's. -/
theorem index_onto : ∀ q0 : Fin 5, ∃ t : Fin cfg0.N, win0_3.index t = ![q0.val, 0] :=
  (by decide +kernel : ∀ q0 : Fin 5, ∃ t : Fin grid0.N, win0_3.index t = ![q0.val, 0])

/-- Every index of the output array lies in some point's block: row r lies in block r / 2000. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := index_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the run the output array is the target: each point wrote its block of it, and the blocks cover the array. -/
theorem final (c : Dev nD) : (dats m 0 c).arrAt 3 cfg0.N = target m c :=
  (dats m 0 c).arrAt_eq_of_cover 3 (target m c) (fun t _ => flushed_eq m c t) cover

/-- The kernel's run with its result array named as the target, the arguments unchanged. -/
theorem run : θ_run defs (onTc (τ := τ) (main (F := Ideal))) ⟨m, fun _ => 0, ρ⟩ fun r => ∀ c : Dev nD,
      r.2.mem ((c : Thread nD τ).loc main_v11) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.ArrayValue
-- ==== Proof.HostPrefix.lean ====
/-
  The two staged arrays that the host operations wrote, and the kernel's result as a function of the arguments.

  Before the kernel region the program gathers the rows of the node features named by the source indices (a negative
  index counted from the end), scatter-adds them into an all-zero 10000 × 128 array at the destination indices, and
  reshapes the bias of length 128 to a 1 × 128 row. The reference performs the same gather and scatter-add, operation
  for operation, so the aggregated array the region finds is the reference's aggregation stage of the same three
  arguments; neither the gather nor the scatter-add is opened. The reshaped bias row read at (0, j) is the bias at j:
  both sit at row-major position j. With the weight array untouched before the region, the kernel's output array is
  the dense layer of the aggregated features, the weights and the bias.
-/
import proofs.«121899_j75033078661648_1_alg».proof.Proof.KernelArray
import proofs.«121899_j75033078661648_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The aggregated array as the region finds it is the reference's aggregation stage of the features, the source
    indices and the destination indices: the same operations in the same order on both sides. -/
theorem aggregated (c : Dev nD) :
    (V m c main_v9 : S10000x128.Idx → EReal)
      = Cert.ReferenceIdeal.Read.val_main_v9 (F := Ideal) (m ((c : Thread nD τ).loc main_arg0))
          (m ((c : Thread nD τ).loc main_arg1)) (m ((c : Thread nD τ).loc main_arg2)) := by
  dsimp only [Gen.V, Gen.hostOps0]
  after_results
  rfl

/-- The bias row as the region finds it is the bias reshaped from length 128 to 1 × 128. -/
theorem bias_row (c : Dev nD) :
    (V m c main_v10 : S1x128.Idx → EReal)
      = fun i => shapeCast S1x128 (m ((c : Thread nD τ).loc main_arg4)) shapeCasts_S128_S1x128 i := by
  dsimp only [Gen.V, Gen.hostOps0]
  after_results
  rfl

/-- The bias row at (0, j) is the bias at j: position 0 · 128 + j of the row is position j of the vector. -/
theorem bias_vector (c : Dev nD) (j : Fin 128) :
    (V m c main_v10 : S1x128.Idx → EReal) (ix2 0 j) = (m ((c : Thread nD τ).loc main_arg4) : S128.Idx → EReal) (ix1 j) := by
  rw [bias_row]
  refine shapeCast_apply _ _ (ix2 0 j) (ix1 j) ?_
  rw [Shape.rowMajor_val_one, Shape.rowMajor_val_two]
  show j.val = 0 * 128 + j.val
  omega

/-- The target of the kernel's output array is the dense layer of the reference's aggregation stage, the weight
    argument and the bias argument. -/
theorem target_eq (c : Dev nD) :
    ArrayValue.target m c
      = Cert.Dense.layer (Cert.ReferenceIdeal.Read.val_main_v9 (F := Ideal) (m ((c : Thread nD τ).loc main_arg0))
          (m ((c : Thread nD τ).loc main_arg1)) (m ((c : Thread nD τ).loc main_arg2)))
          (m ((c : Thread nD τ).loc main_arg3)) (m ((c : Thread nD τ).loc main_arg4)) := by
  unfold ArrayValue.target
  have hb : ArrayValue.rowAsVector (V m c main_v10) = (m ((c : Thread nD τ).loc main_arg4) : S128.Idx → EReal) :=
    funext fun j => (bias_vector m c (j 0)).trans (congrArg _ (eq_ix1 j).symm)
  rw [hb, aggregated, V_main_arg3]

/-- The kernel's run with its result array as the dense layer of the arguments, the arguments unchanged. -/
theorem run : θ_run defs (onTc (τ := τ) (main (F := Ideal))) ⟨m, fun _ => 0, ρ⟩ fun r => ∀ c : Dev nD,
      r.2.mem ((c : Thread nD τ).loc main_v11)
        = Cert.Dense.layer (Cert.ReferenceIdeal.Read.val_main_v9 (F := Ideal) (m ((c : Thread nD τ).loc main_arg0))
            (m ((c : Thread nD τ).loc main_arg1)) (m ((c : Thread nD τ).loc main_arg2)))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (target_eq m c), (h c).2⟩) (ArrayValue.run m ρ)

end Cert.KernelIdeal.HostPrefix
-- ==== Proof.RefDense.lean ====
/-
  The reference's result is the dense layer of the aggregated features.

  The reference computes, from the aggregated 10000 × 128 array h (its scatter-add of gathered rows, left unopened
  here), the host's matrix product of h with the weights, adds the bias broadcast first to a 1 × 128 row and then over
  the 10000 rows, and takes the maximum with a broadcast zero. Read at (i, j): the product is the sum over k of
  h (i, k) · W (k, j), the twice-broadcast bias is b j, and the broadcast zero is the zero word's value. That is the layer's
  entry (i, j), term for term.
-/
import proofs.«121899_j75033078661648_1_alg».proof.Proof.Gen.ReferenceIdeal.Read
import proofs.«121899_j75033078661648_1_alg».proof.Proof.Dense

noncomputable section

open scoped BigOperators

namespace Cert.ReferenceIdeal.RefValue

open Cert.ReferenceIdeal Cert.ReferenceIdeal.Read Idealize.ShloMosaic Idealize.ShloMosaic.ValueIdx

/-- At result entry (i, j) and contraction coordinate k the left factor is read at (i, k). -/
theorem left_at (i : Fin 10000) (j k : Fin 128) : lidx_main_v10 (ix2 i j) k = ix2 i k :=
  funext fun a => Fin.ext (by match a with | ⟨0, _⟩ => rfl | ⟨1, _⟩ => rfl)

/-- At result entry (i, j) and contraction coordinate k the right factor is read at (k, j). -/
theorem right_at (i : Fin 10000) (j k : Fin 128) : ridx_main_v10 (ix2 i j) k = ix2 k j :=
  funext fun a => Fin.ext (by match a with | ⟨0, _⟩ => rfl | ⟨1, _⟩ => rfl)

/-- The bias broadcast to a row and then over the rows, read at (i, j), is read at j. -/
theorem bias_at (i : Fin 10000) (j : Fin 128) : idx_main_v11 (idx_main_v12 (ix2 i j)) = ix1 j :=
  funext fun a => Fin.ext (by match a with | ⟨0, _⟩ => rfl)

/-- The reference's last stage is the dense layer of its aggregated array, the weights and the bias. -/
theorem result_eq (x0 : (⟨S10000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal)) :
    val_main_v14 (F := Ideal) x0 x1 x2 x3 x4 = Cert.Dense.layer (val_main_v9 (F := Ideal) x0 x1 x2) x3 x4 := by
  funext e
  obtain ⟨i, j, rfl⟩ : ∃ (i : Fin 10000) (j : Fin 128), e = ix2 i j := ⟨e 0, e 1, eq_ix2 e⟩
  rw [val_main_v14_apply, val_main_v13_apply, val_main_v10_apply, val_main_v12_apply, val_main_v11_apply,
    val_main_call0_v0_apply, val_main_call0_cst_apply, Cert.Dense.layer_apply]
  simp only [left_at, right_at, bias_at]
  rfl

end Cert.ReferenceIdeal.RefValue
-- ==== Proof.lean ====
/-
  A graph-convolution layer: sum aggregation over incoming edges, then a dense layer with bias clamped below at zero.

  Both programs first gather, for every edge, the feature row of the edge's source node, and add the gathered rows into
  an all-zero 10000 × 128 array at the edge's destination node. This part is the same sequence of operations in both
  programs and is carried as one unopened term h of the three arguments (features, sources, destinations).

  The reference then forms h · W with the host's matrix product, adds the bias over the rows and takes the maximum with
  zero. The kernel does the same in five blocks of 2000 rows: each block's rows and the weights are narrowed to a
  shorter float format (the identity at the ideal values), multiplied into an all-zero accumulator, the bias row is
  added and the maximum with zero taken; the five blocks tile the output. At the ideal values both results are, at
  entry (i, j),

      max ( ∑ q : Fin 128, h (i, q) · W (q, j)  +  b j ,  0 ),

  the same sum of the same products in the same order, so no law of the extended reals beyond reading each operation
  at an index is used and the finiteness of the inputs is never needed.

  The three frames: the two kernel programs' frames are the generated ones; the reference has no kernel, and its frame
  is its run with the result dropped. The idealization rewrote no operation, so the kernel's idealized program is its
  own text read at the ideal values and there is nothing to preserve. The value claim sets the kernel's run, its output
  array named as the dense layer of h, beside the reference's run, whose last stage is the same layer.
-/
import proofs.«121899_j75033078661648_1_alg».proof.Defs
import proofs.«121899_j75033078661648_1_alg».proof.Proof.Gen.Kernel
import proofs.«121899_j75033078661648_1_alg».proof.Proof.Gen.Kernel.Skeleton
import proofs.«121899_j75033078661648_1_alg».proof.Proof.Gen.Kernel.Launch
import proofs.«121899_j75033078661648_1_alg».proof.Proof.Gen.Kernel.Points
import proofs.«121899_j75033078661648_1_alg».proof.Proof.Gen.Kernel.Frame
import proofs.«121899_j75033078661648_1_alg».proof.Proof.Gen.KernelIdeal
import proofs.«121899_j75033078661648_1_alg».proof.Proof.Gen.KernelIdeal.Skeleton
import proofs.«121899_j75033078661648_1_alg».proof.Proof.Gen.KernelIdeal.Launch
import proofs.«121899_j75033078661648_1_alg».proof.Proof.Gen.KernelIdeal.Points
import proofs.«121899_j75033078661648_1_alg».proof.Proof.Gen.KernelIdeal.Frame
import proofs.«121899_j75033078661648_1_alg».proof.Proof.Gen.ReferenceIdeal
import proofs.«121899_j75033078661648_1_alg».proof.Proof.Gen.Pre_finite_inputs
import proofs.«121899_j75033078661648_1_alg».proof.Proof.Gen.KernelIdeal.Value
import proofs.«121899_j75033078661648_1_alg».proof.Proof.Gen.ReferenceIdeal.Run
import proofs.«121899_j75033078661648_1_alg».proof.Proof.Gen.ReferenceIdeal.Read
import proofs.«121899_j75033078661648_1_alg».proof.Proof.HostPrefix
import proofs.«121899_j75033078661648_1_alg».proof.Proof.RefDense
import Idealize.ShloMosaic.Adequacy
import Idealize.ShloMosaic.Init

noncomputable section

namespace Cert.Proof

open Idealize.ShloMosaic Idealize.ShloMosaic.TcCoe Idealize.SL.Sem

/-- The kernel as printed runs to the end with its arguments unchanged. -/
theorem frame_kernel : Cert.frame_Kernel :=
  fun m ρ _ => Cert.Kernel.Gen.frame m ρ

/-- The idealized kernel runs to the end with its arguments unchanged. -/
theorem frame_kernelIdeal : Cert.frame_KernelIdeal :=
  fun m ρ _ => Cert.KernelIdeal.Gen.frame m ρ

/-- The reference runs to the end with its arguments unchanged: its run, the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- Both idealized programs end with the dense layer of the aggregated features: the kernel's output array by its
    blocks, the reference's last stage read at an index, from arguments that agree. -/
theorem algebraic : Cert.algebraic_KernelIdeal_ReferenceIdeal := by
  intro m ρ m' ρ' _ hagree
  refine ⟨_, Cert.KernelIdeal.HostPrefix.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
